-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192 : Shape := ⟨1, ![8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S4096x8192 .f32) (main_arg1 : FVec F S8192 .f32) (main_arg2 : FVec F S8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S4096x8192 : Shape := ⟨2, ![4096, 8192]⟩
abbrev S8192 : Shape := ⟨1, ![8192]⟩
abbrev S1x8192 : Shape := ⟨2, ![1, 8192]⟩
abbrev S256x8192 : Shape := ⟨2, ![256, 8192]⟩

abbrev nBuf : Space → Nat
  | .hbm => 6
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S8192, .f32⟩
  | .hbm, ⟨3, _⟩ => ⟨S1x8192, .f32⟩
  | .hbm, ⟨4, _⟩ => ⟨S1x8192, .f32⟩
  | .hbm, ⟨5, _⟩ => ⟨S4096x8192, .f32⟩
  | .local _ .vmem, ⟨0, _⟩ => ⟨S256x8192, .f32⟩
  | .local _ .vmem, ⟨1, _⟩ => ⟨S256x8192, .f32⟩
  | .local _ .vmem, ⟨2, _⟩ => ⟨S1x8192, .f32⟩
  | .local _ .vmem, ⟨3, _⟩ => ⟨S1x8192, .f32⟩
  | .local _ .vmem, ⟨4, _⟩ => ⟨S256x8192, .f32⟩
  | .local _ .vmem, ⟨5, _⟩ => ⟨S256x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S256x8192_S256x8192_0_0 : ∀ a, (![0, 0] : Fin 2 → Nat) a + S256x8192.size a ≤ S256x8192.size a
  h_S256x8192 : 0 < S256x8192.numel
  broadcasts_S1x8192_S256x8192 : S1x8192.Broadcasts S256x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S4096x8192.size a
  hwx0_3 : ∀ i : grid0.Coords, EltTy.bits .f32 = 32 ∨ (Rect.block (s := S4096x8192) S256x8192.size (cc0_transform_3 i) (hinb0_3 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S8192 : Shape := ⟨1, ![8192]⟩
abbrev S1x8192 : Shape := ⟨2, ![1, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192, .f32⟩
  | .hbm, ⟨2, _⟩ => ⟨S8192, .f32⟩
  | .hbm, ⟨3, _⟩ => ⟨S1x8192, .f32⟩
  | .hbm, ⟨4, _⟩ => ⟨S4096x8192, .f32⟩
  | .hbm, ⟨5, _⟩ => ⟨S4096x8192, .f32⟩
  | .hbm, ⟨6, _⟩ => ⟨S1x8192, .f32⟩
  | .hbm, ⟨7, _⟩ => ⟨S4096x8192, .f32⟩
  | .hbm, ⟨8, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)

variable [Facts₀]

class Facts : Prop extends Facts₀ where

variable [Facts]
-- ==== Proof.Spec.lean ====
/-
  The function both programs compute: a column-wise affine map of a 4096 × 8192 matrix.
  Entry (r, k) of the result is  w0 k + x (r, k) * w1 k : the column's offset plus the entry scaled
  by the column's weight. On the extended reals this is one product followed by one sum, taken in
  the same order by both programs, so comparing them needs no law of arithmetic and no finiteness
  of the inputs.
-/
import Idealize.ShloMosaic.PureOps.Ideal
import Idealize.ShloMosaic.Lib.ValueIdx

noncomputable section

namespace Cert.Affine

open Idealize.ShloMosaic Idealize.ShloMosaic.ValueIdx

/-- The matrix shape, 4096 rows of 8192 columns. -/
abbrev Mat : Shape := ⟨2, ![4096, 8192]⟩
/-- The shape of a vector of per-column parameters. -/
abbrev Col : Shape := ⟨1, ![8192]⟩

/-- The column-wise affine map: the entry in row `r` and column `k` is `w0 k + x (r, k) * w1 k`. -/
def colAffine (x : FVec Ideal Mat .f32) (w0 w1 : FVec Ideal Col .f32) : FVec Ideal Mat .f32 :=
  fun i => w0 (ix1 (i 1)) + x i * w1 (ix1 (i 1))

/-- The map at a row and a column. -/
theorem colAffine_apply (x : FVec Ideal Mat .f32) (w0 w1 : FVec Ideal Col .f32) (r : Fin 4096) (k : Fin 8192) :
    colAffine x w0 w1 (ix2 r k) = w0 (ix1 k) + x (ix2 r k) * w1 (ix1 k) := rfl

end Cert.Affine

end
-- ==== Proof.RefValue.lean ====
/-
  The reference computes the column-wise affine map.
  Its host program broadcasts each parameter vector first to a single row and then down the 4096
  rows, multiplies the matrix by the broadcast weights and adds the product to the broadcast
  offsets. Read at the entry (r, k), a vector broadcast in this way is the vector at column k, so
  the result there is  w0 k + x (r, k) * w1 k,  with the sum and the product in exactly that order.
-/
import proofs.«424256_j22789096473429_3_alg».proof.Proof.Gen.ReferenceIdeal.Read
import proofs.«424256_j22789096473429_3_alg».proof.Proof.Spec

noncomputable section

namespace Cert.ReferenceIdeal.RefValue

open Cert.ReferenceIdeal Cert.ReferenceIdeal.Read Idealize.ShloMosaic Idealize.ShloMosaic.ValueIdx Cert.Affine

/-- The offsets, broadcast to a row and then to the matrix, are read at the entry's column. -/
theorem offset_col (i : S4096x8192.Idx) : idx_main_v3 (idx_main_v4 i) = ix1 (i 1) :=
  funext fun a => match a with | ⟨0, _⟩ => rfl

/-- The weights, broadcast to a row and then to the matrix, are read at the entry's column. -/
theorem weight_col (i : S4096x8192.Idx) : idx_main_v0 (idx_main_v1 i) = ix1 (i 1) :=
  funext fun a => match a with | ⟨0, _⟩ => rfl

/-- The reference's result, as a function of its three arguments, is the column-wise affine map. -/
theorem result_eq (x : FVec Ideal S4096x8192 .f32) (w0 w1 : FVec Ideal S8192 .f32) :
    val_main_v5 (F := Ideal) x w0 w1 = colAffine x w0 w1 := by
  funext i
  rw [val_main_v5_apply, val_main_v4_apply, val_main_v3_apply, val_main_v2_apply, val_main_v1_apply,
    val_main_v0_apply, offset_col, weight_col]
  rfl

end Cert.ReferenceIdeal.RefValue

end
-- ==== Proof.KernelValue.lean ====
/-
  The kernel computes the column-wise affine map, 256 rows at a time.
  Before the region the two parameter vectors are laid out as single rows of 8192 entries. The grid
  has 16 points; point t works on rows 256 t … 256 t + 255 of the matrix and on the whole of both
  parameter rows. Its body adds, entry by entry, the offset row (repeated down the 256 rows) to the
  product of the matrix block with the weight row (repeated likewise), and stores the sum as the
  output block. So the entry of the output block at (p, k) is  w0 k + x (256 t + p, k) * w1 k,  which
  is the column-wise affine map of the arguments read at row 256 t + p and column k; and since the
  16 blocks of 256 rows tile the 4096 rows, the whole output array ends holding that map.
-/
import proofs.«424256_j22789096473429_3_alg».proof.Proof.Gen.KernelIdeal.Value
import proofs.«424256_j22789096473429_3_alg».proof.Proof.Spec
import Idealize.ShloMosaic.Lib.StableHlo.Run
import Idealize.ShloMosaic.Lib.ValueIdx
import Idealize.ShloMosaic.Lib.Pipeline.Value

noncomputable section

namespace Cert.KernelIdeal.AffineValue

open Cert.KernelIdeal Cert.KernelIdeal.Gen Idealize.ShloMosaic Idealize.ShloMosaic.TcCoe Idealize.SL.Sem
open Idealize.ShloMosaic.ValueIdx Cert.Affine
open Idealize.ShloMosaic.Pipeline (Dat)

variable (m : (ℓ : Loc nD τ sig) → Buf (Elt Ideal) ℓ) (ρ : Dev nD → PrngReg)

/-! ## The parameter rows the region finds -/

/-- A vector of 8192 entries laid out as a single row is read, at column k of that row, at its entry k. -/
theorem row_apply (v : FVec Ideal S8192 .f32) (y : S1x8192.Idx) :
    shapeCast S1x8192 v shapeCasts_S8192_S1x8192 y = v (ix1 (y 1)) := by
  refine (shapeCast_addUnit_apply ![8192] v shapeCasts_S8192_S1x8192 y).trans (congrArg v ?_)
  funext a; match a with | ⟨0, _⟩ => rfl

/-- The offset row as the region finds it: the second argument laid out as one row. -/
theorem offsets_row (c : Dev nD) :
    (V m c main_v0 : S1x8192.Idx → Ideal .f32)
      = shapeCast S1x8192 (m ((c : Thread nD τ).loc main_arg1)) shapeCasts_S8192_S1x8192 := by
  dsimp only [Gen.V, Gen.hostOps0]; after_results; rfl

/-- The weight row as the region finds it: the third argument laid out as one row. -/
theorem weights_row (c : Dev nD) :
    (V m c main_v1 : S1x8192.Idx → Ideal .f32)
      = shapeCast S1x8192 (m ((c : Thread nD τ).loc main_arg2)) shapeCasts_S8192_S1x8192 := by
  dsimp only [Gen.V, Gen.hostOps0]; after_results; rfl

/-! ## What the body leaves in the output block -/

theorem origin : (![0, 0] : Fin 2 → Nat) = fun _ => 0 := funext fun a => by fin_cases a <;> rfl

/-- The entry of a parameter row that sits above the block entry `y`: the single row, `y`'s column. -/
abbrev above (y : S256x8192.Idx) : S1x8192.Idx := ix2 0 (y 1)

/-- The block the body stores, entry by entry, from the blocks it loads: the matrix block `x0`, the
    offset row `x1` and the weight row `x2`. Each row is repeated down the 256 rows of the block. -/
theorem block_at (x0 : Vec Ideal S256x8192 .f32) (x1 x2 : Vec Ideal S1x8192 .f32) (y : S256x8192.Idx) :
    out0_3 x0 x1 x2 y = x1 (above y) + x0 y * x2 (above y) := by
  unfold out0_3
  rw [Value.canon3_eq]
  simp only [View.ld_unit_zero (S := S1x8192) origin, View.ld_unit_zero (S := S256x8192) origin]
  show FloatOps.addf (F := Ideal) (φ := .f32) (x1 (Value.ix3_0 y)) (FloatOps.mulf (F := Ideal) (φ := .f32) (x0 (Value.ix3_1 y)) (x2 (Value.ix3_2 y))) = _
  have e0 : Value.ix3_0 y = above y := funext fun a => match a with | ⟨0, _⟩ => rfl | ⟨1, _⟩ => rfl
  have e1 : Value.ix3_1 y = y := funext fun a => match a with | ⟨0, _⟩ => rfl | ⟨1, _⟩ => rfl
  have e2 : Value.ix3_2 y = above y := funext fun a => match a with | ⟨0, _⟩ => rfl | ⟨1, _⟩ => rfl
  rw [e0, e1, e2]
  rfl

/-! ## Where each window's block sits at a grid point -/

/-- The block index maps over the 16 grid points: the matrix block and the output block are block `t` of
    their arrays' rows (and span all columns), and both parameter rows are taken whole at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The column-wise affine map of the three arguments as launched, on core `c`. -/
abbrev result (c : Dev nD) : FVec Ideal S4096x8192 .f32 :=
  colAffine (m ((c : Thread nD τ).loc main_arg0)) (m ((c : Thread nD τ).loc main_arg1)) (m ((c : Thread nD τ).loc main_arg2))

/-- What grid point `t` writes back is block `t` of the column-wise affine map of the arguments. -/
theorem flushed_eq (c : Dev nD) (t : Fin cfg0.N) :
    (dats m 0 c).flushed 3 t = ((cfg0.win 3).blk t).view.read (Elt Ideal) (result m c) := by
  rw [Value.flushed3]
  obtain ⟨a00, a01, b0, b1, c0, c1, d0, d1⟩ := block_indices t
  funext j
  have hj0 : (j 0).val < 256 := (j 0).isLt
  have hj1 : (j 1).val < 8192 := (j 1).isLt
  show out0_3 (iblk m c 0 t) (iblk m c 1 t) (iblk m c 2 t) j = result m c (((cfg0.win 3).blk t).view.emb j)
  refine (block_at (iblk m c 0 t) (iblk m c 1 t) (iblk m c 2 t) j).trans ?_
  -- the matrix block's entry is the matrix's entry under the output block's entry
  have hx : iblk m c 0 t j = m ((c : Thread nD τ).loc main_arg0) (((cfg0.win 3).blk t).view.emb j) := by
    show V m c main_arg0 (((cfg0.win 0).blk t).view.emb j) = _
    rw [V_main_arg0]
    refine congrArg _ (funext fun a => Fin.ext ?_)
    match a with
    | ⟨0, _⟩ => show win0_0.index t (0 : Fin 2) * 256 + 1 * (j 0).val = win0_3.index t (0 : Fin 2) * 256 + 1 * (j 0).val; omega
    | ⟨1, _⟩ => show win0_0.index t (1 : Fin 2) * 8192 + 1 * (j 1).val = win0_3.index t (1 : Fin 2) * 8192 + 1 * (j 1).val; omega
  -- each parameter row's entry above it is the parameter of its column
  have hw0 : iblk m c 1 t (above j) = m ((c : Thread nD τ).loc main_arg1) (ix1 ((((cfg0.win 3).blk t).view.emb j) 1)) := by
    show V m c main_v0 (((cfg0.win 1).blk t).view.emb (above j)) = _
    rw [offsets_row, row_apply]
    refine congrArg _ (funext fun a => Fin.ext ?_)
    match a with
    | ⟨0, _⟩ => show win0_1.index t (1 : Fin 2) * 8192 + 1 * (j 1).val = win0_3.index t (1 : Fin 2) * 8192 + 1 * (j 1).val; omega
  have hw1 : iblk m c 2 t (above j) = m ((c : Thread nD τ).loc main_arg2) (ix1 ((((cfg0.win 3).blk t).view.emb j) 1)) := by
    show V m c main_v1 (((cfg0.win 2).blk t).view.emb (above j)) = _
    rw [weights_row, row_apply]
    refine congrArg _ (funext fun a => Fin.ext ?_)
    match a with
    | ⟨0, _⟩ => show win0_2.index t (1 : Fin 2) * 8192 + 1 * (j 1).val = win0_3.index t (1 : Fin 2) * 8192 + 1 * (j 1).val; omega
  rw [hx, hw0, hw1]
  rfl

/-! ## The blocks tile the array -/

/-- A matrix entry lies in point `t`'s output block iff each coordinate is in the block's range on its axis. -/
theorem mem_block (t : Fin cfg0.N) (i : S4096x8192.Idx) :
    i ∈ ((cfg0.win 3).blk t).view.set ↔ ∀ a : Fin 2, win0_3.index t a * S256x8192.size a ≤ (i a).val ∧ (i a).val < win0_3.index t a * S256x8192.size a + S256x8192.size a := by
  show i ∈ ((View.whole main_v2).slice (win0_3.rect t)).set ↔ _
  rw [View.set_slice_whole, Rect.mem_set_unit]
  exact Iff.rfl

/-- Every matrix entry is written back by some point: row `r` by point `r / 256`. -/
theorem tiled (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  have hN : cfg0.N = 16 := N_0
  obtain ⟨t, ht⟩ : ∃ t : Fin cfg0.N, t.val = (i 0).val / 256 := ⟨⟨(i 0).val / 256, by omega⟩, rfl⟩
  obtain ⟨-, -, -, -, -, -, d0, d1⟩ := block_indices t
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 8192 ≤ (i 1).val ∧ (i 1).val < win0_3.index t (1 : Fin 2) * 8192 + 8192; omega

/-- After the sixteen write-backs the output array is the column-wise affine map of the arguments. -/
theorem final (c : Dev nD) : (dats m 0 c).arrAt 3 cfg0.N = result m c :=
  (dats m 0 c).arrAt_eq_of_cover 3 (result m c) (fun t _ => flushed_eq m c t) tiled

/-! ## The run -/

/-- Every weakly fair execution of the kernel's program terminates with the result array at the column-wise
    affine map of the arguments, and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.AffineValue

end
-- ==== Proof.lean ====
/-
  A column-wise affine map, computed by a kernel and by its reference: the same function.

  The arguments are a matrix x of 4096 rows and 8192 columns and two vectors w0 (offsets) and w1
  (weights) of 8192 entries. Both programs produce the matrix whose entry in row r and column k is
      w0 k + x (r, k) * w1 k.
  The kernel lays w0 and w1 out as single rows and then walks the matrix in 16 blocks of 256 rows,
  adding the offset row (repeated down the block) to the product of the block with the weight row
  (repeated likewise); the 16 blocks tile the rows, so its result array ends holding the map above
  (Proof/KernelValue.lean). The reference broadcasts w0 and w1 to the whole matrix and adds the
  offsets to the product of x with the weights, which read at (r, k) is the same expression
  (Proof/RefValue.lean). Sum and product stand in the same order on both sides, so the two results are
  equal on all extended reals and the finiteness of the inputs is never used.

  The three programs' runs end with their arguments unchanged: for the two kernel programs this is the
  frame of the launched region, for the reference it is its run with the result forgotten. The kernel's
  idealization rewrote no operation, so there is nothing to preserve.
-/
import proofs.«424256_j22789096473429_3_alg».proof.Defs
import proofs.«424256_j22789096473429_3_alg».proof.Proof.Gen.Kernel
import proofs.«424256_j22789096473429_3_alg».proof.Proof.Gen.Kernel.Skeleton
import proofs.«424256_j22789096473429_3_alg».proof.Proof.Gen.Kernel.Launch
import proofs.«424256_j22789096473429_3_alg».proof.Proof.Gen.Kernel.Points
import proofs.«424256_j22789096473429_3_alg».proof.Proof.Gen.Kernel.Frame
import proofs.«424256_j22789096473429_3_alg».proof.Proof.Gen.KernelIdeal
import proofs.«424256_j22789096473429_3_alg».proof.Proof.Gen.KernelIdeal.Skeleton
import proofs.«424256_j22789096473429_3_alg».proof.Proof.Gen.KernelIdeal.Launch
import proofs.«424256_j22789096473429_3_alg».proof.Proof.Gen.KernelIdeal.Points
import proofs.«424256_j22789096473429_3_alg».proof.Proof.Gen.KernelIdeal.Frame
import proofs.«424256_j22789096473429_3_alg».proof.Proof.Gen.ReferenceIdeal
import proofs.«424256_j22789096473429_3_alg».proof.Proof.Gen.Pre_finite_inputs
import proofs.«424256_j22789096473429_3_alg».proof.Proof.Gen.KernelIdeal.Value
import proofs.«424256_j22789096473429_3_alg».proof.Proof.Gen.ReferenceIdeal.Run
import proofs.«424256_j22789096473429_3_alg».proof.Proof.Gen.ReferenceIdeal.Read
import proofs.«424256_j22789096473429_3_alg».proof.Proof.Spec
import proofs.«424256_j22789096473429_3_alg».proof.Proof.RefValue
import proofs.«424256_j22789096473429_3_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- The idealized kernel runs and leaves its arguments as they were. -/
theorem frame_kernelIdeal : Cert.frame_KernelIdeal := fun m ρ _ => Cert.KernelIdeal.Gen.frame m ρ

/-- The idealized reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on x, w0 and w1 both programs end with the matrix  w0 k + x (r, k) * w1 k. -/
theorem algebraic : Cert.algebraic_KernelIdeal_ReferenceIdeal := by
  intro m ρ m' ρ' _ hagree
  refine ⟨fun c => Cert.KernelIdeal.AffineValue.result m c, Cert.KernelIdeal.AffineValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
